-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x32 : Shape := ⟨2, ![32, 32]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S32x32 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S32x32 : Shape := ⟨2, ![32, 32]⟩
abbrev S16x4096 : Shape := ⟨2, ![16, 4096]⟩
abbrev S4096x16 : Shape := ⟨2, ![4096, 16]⟩
abbrev S8192x4096 : Shape := ⟨2, ![8192, 4096]⟩
abbrev S32x128x32 : Shape := ⟨3, ![32, 128, 32]⟩
abbrev S4096x32 : Shape := ⟨2, ![4096, 32]⟩
abbrev S4096x32x128 : Shape := ⟨3, ![4096, 32, 128]⟩
abbrev S2048x512 : Shape := ⟨2, ![2048, 512]⟩
abbrev S512x512 : Shape := ⟨2, ![512, 512]⟩
abbrev S16x512 : Shape := ⟨2, ![16, 512]⟩
abbrev S512x16 : Shape := ⟨2, ![512, 16]⟩
abbrev S2048x16 : Shape := ⟨2, ![2048, 16]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S32x32, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S32x128x32, .f32⟩
  | .hbm, ⟨7, _⟩ => ⟨S4096x32, .f32⟩
  | .hbm, ⟨8, _⟩ => ⟨S4096x32x128, .f32⟩
  | .hbm, ⟨9, _⟩ => ⟨S4096x4096, .f32⟩
  | .hbm, ⟨10, _⟩ => ⟨S8192x4096, .f32⟩
  | .hbm, ⟨11, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S512x16, .f32⟩
  | .local _ .vmem, ⟨9, _⟩ => ⟨S512x16, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v25 : BitVec 1 := Scalar.cmpi .eq arg2 c7_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S16x512_S16x512_0_0 : ∀ a, (![0, 0] : Fin 2 → Nat) a + S16x512.size a ≤ S16x512.size a
  h_S16x512 : 0 < S16x512.numel
  inb_S512x16_S512x16_0_0 : ∀ a, (![0, 0] : Fin 2 → Nat) a + S512x16.size a ≤ S512x16.size a
  h_S512x16 : 0 < S512x16.numel
  shapeCasts_S8192x4096_S4x2048x4096 : S8192x4096.ShapeCasts S4x2048x4096
  dot_S2048x512_S512x512_S2048x512_1_1_0_0_n_n_wf : DotDims.WF S2048x512 S512x512 S2048x512 [1] [1] [0] [0] [] []
  dot_S2048x512_S16x512_S2048x16_1_1_0_0_n_n_wf : DotDims.WF S2048x512 S16x512 S2048x16 [1] [1] [0] [0] [] []
  dot_S2048x16_S512x16_S2048x512_1_1_0_0_n_n_wf : DotDims.WF S2048x16 S512x16 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S4096x16.size a
  hwx0_4 : ∀ i : grid0.Coords, EltTy.bits .f32 = 32 ∨ (Rect.block (s := S4096x16) S512x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S8192x4096.size a
  hwx0_5 : ∀ i : grid0.Coords, EltTy.bits .f32 = 32 ∨ (Rect.block (s := S8192x4096) S2048x512.size (cc0_transform_5 i) (hinb0_5 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S16x512_S2048x16_1_1_0_0_n_n : DotDims S2048x512 S16x512 S2048x16 where
  lhsContracting := [1]
  rhsContracting := [1]
  lhsNonContracting := [0]
  rhsNonContracting := [0]
  lhsBatch := []
  rhsBatch := []
  wf := dot_S2048x512_S16x512_S2048x16_1_1_0_0_n_n_wf
def dot_S2048x16_S512x16_S2048x512_1_1_0_0_n_n : DotDims S2048x16 S512x16 S2048x512 where
  lhsContracting := [1]
  rhsContracting := [1]
  lhsNonContracting := [0]
  rhsNonContracting := [0]
  lhsBatch := []
  rhsBatch := []
  wf := dot_S2048x16_S512x16_S2048x512_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x32 : Shape := ⟨2, ![32, 32]⟩
abbrev S16x4096 : Shape := ⟨2, ![16, 4096]⟩
abbrev S4096x16 : Shape := ⟨2, ![4096, 16]⟩
abbrev S32x128x32 : Shape := ⟨3, ![32, 128, 32]⟩
abbrev S4096x32 : Shape := ⟨2, ![4096, 32]⟩
abbrev S4096x32x128 : Shape := ⟨3, ![4096, 32, 128]⟩
abbrev S4x2048x16 : Shape := ⟨3, ![4, 2048, 16]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S32x32, .f32⟩
  | .hbm, ⟨3, _⟩ => ⟨S16x4096, .f32⟩
  | .hbm, ⟨4, _⟩ => ⟨S4096x16, .f32⟩
  | .hbm, ⟨5, _⟩ => ⟨S32x128x32, .f32⟩
  | .hbm, ⟨6, _⟩ => ⟨S4096x32, .f32⟩
  | .hbm, ⟨7, _⟩ => ⟨S4096x32x128, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S4x2048x16, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.BlockSum.lean ====
/-
  Two small tools for reading a blocked matrix product at coordinates.

  * A sum over `a * b` consecutive positions is the sum over the `a` blocks of length `b` of each block's own
    sum: only commutativity and associativity of `+`, so it holds in the extended reals with no finiteness.
  * Rank-2 and rank-3 arrays read at natural-number coordinates (zero outside the extents). Index arithmetic on
    such coordinates is plain arithmetic in `ℕ`: the row `2048 * i + p` of a block is just a number.
-/
import Idealize.ShloMosaic.Lib.ValueIdx

noncomputable section

open scoped BigOperators
open Idealize.ShloMosaic Idealize.ShloMosaic.ValueIdx

namespace Cert.LoraGemm

/-- A sum over `a * b` positions, taken block by block: position `b * i + j` is entry `j` of block `i`. -/
theorem sum_by_blocks {M : Type*} [AddCommMonoid M] {n : ℕ} (a b : ℕ) (h : a * b = n) (f : ℕ → M) :
    ∑ k : Fin n, f k.val = ∑ i : Fin a, ∑ j : Fin b, f (b * i.val + j.val) := by
  subst h
  rw [← Equiv.sum_comp finProdFinEquiv, Fintype.sum_prod_type]
  refine Finset.sum_congr rfl fun i _ => Finset.sum_congr rfl fun j _ => ?_
  show f (j.val + b * i.val) = _
  rw [Nat.add_comm]

/-- The same sum with the blocks counted by a range of naturals. -/
theorem sum_by_blocks_range {M : Type*} [AddCommMonoid M] {n : ℕ} (a b : ℕ) (h : a * b = n) (f : ℕ → M) :
    ∑ k : Fin n, f k.val = ∑ i ∈ Finset.range a, ∑ j : Fin b, f (b * i + j.val) := by
  rw [sum_by_blocks a b h f, Finset.sum_range]

/-- A rank-2 array read at natural-number coordinates; zero outside its extents. -/
def rd2 {a b : ℕ} (A : (⟨2, ![a, b]⟩ : Shape).Idx → EReal) (p q : ℕ) : EReal :=
  if h : p < a ∧ q < b then A (ix2 ⟨p, h.1⟩ ⟨q, h.2⟩) else 0

/-- An entry of a rank-2 array is its reading at the entry's coordinates. -/
theorem rd2_of_val {a b : ℕ} (A : (⟨2, ![a, b]⟩ : Shape).Idx → EReal) (j : (⟨2, ![a, b]⟩ : Shape).Idx) (p q : ℕ)
    (hp : (j 0).val = p) (hq : (j 1).val = q) : A j = rd2 A p q := by
  subst hp hq
  unfold rd2
  rw [dif_pos ⟨idx2_lt0 j, idx2_lt1 j⟩]
  exact congrArg A (eq_ix2 j)

/-- A rank-3 array read at natural-number coordinates; zero outside its extents. -/
def rd3 {a b c : ℕ} (A : (⟨3, ![a, b, c]⟩ : Shape).Idx → EReal) (p q r : ℕ) : EReal :=
  if h : p < a ∧ q < b ∧ r < c then A (ix3 ⟨p, h.1⟩ ⟨q, h.2.1⟩ ⟨r, h.2.2⟩) else 0

/-- An entry of a rank-3 array is its reading at the entry's coordinates. -/
theorem rd3_of_val {a b c : ℕ} (A : (⟨3, ![a, b, c]⟩ : Shape).Idx → EReal) (j : (⟨3, ![a, b, c]⟩ : Shape).Idx) (p q r : ℕ)
    (hp : (j 0).val = p) (hq : (j 1).val = q) (hr : (j 2).val = r) : A j = rd3 A p q r := by
  subst hp hq hr
  unfold rd3
  rw [dif_pos ⟨(j 0).isLt, (j 1).isLt, (j 2).isLt⟩]
  exact congrArg A (eq_ix3 j)

end Cert.LoraGemm

end
-- ==== Proof.Spec.lean ====
/-
  The function both programs compute, over the extended reals.

  With `x` of shape [4, 2048, 4096], `w` and the expanded scale `sf` of shape [4096, 4096], `ld` of shape
  [16, 4096] and `lu` of shape [4096, 16], the entry (b, s, o) of the result is

      ∑ₖ x[b,s,k] · (w[o,k] · sf[o,k])  +  2 · ∑ᵣ (∑ₖ x[b,s,k] · ld[r,k]) · lu[o,r]

  — a matrix product with the block-scaled weight plus twice the rank-16 correction. The two programs differ only in
  how the sums over `k` are grouped (the kernel adds eight partial sums of 512 terms, starting from zero), and a
  regrouping of a finite sum is valid in any commutative monoid: nothing here needs the inputs to be finite.
-/
import proofs.«155338_j26422638805106_1_alg».proof.Proof.BlockSum
import Idealize.ShloMosaic.Lib.Pipeline.Value

noncomputable section

open scoped BigOperators
open Idealize.ShloMosaic Idealize.ShloMosaic.ValueIdx

namespace Cert.LoraGemm

/-- The main product's entry at row `(b, s)` and column `o`: the weight row scaled entry by entry, then contracted with the
    activation row. -/
def mainAt (X : (⟨3, ![4, 2048, 4096]⟩ : Shape).Idx → EReal) (W Sf : (⟨2, ![4096, 4096]⟩ : Shape).Idx → EReal)
    (b s o : ℕ) : EReal :=
  ∑ k : Fin 4096, rd3 X b s k.val * (rd2 W o k.val * rd2 Sf o k.val)

/-- The rank-16 projection of the activation row `(b, s)` onto direction `r`. -/
def downAt (X : (⟨3, ![4, 2048, 4096]⟩ : Shape).Idx → EReal) (Ld : (⟨2, ![16, 4096]⟩ : Shape).Idx → EReal)
    (b s r : ℕ) : EReal :=
  ∑ k : Fin 4096, rd3 X b s k.val * rd2 Ld r k.val

/-- The correction's entry: the sixteen projections recombined by row `o` of the up matrix. -/
def corrAt (X : (⟨3, ![4, 2048, 4096]⟩ : Shape).Idx → EReal) (Ld : (⟨2, ![16, 4096]⟩ : Shape).Idx → EReal)
    (Lu : (⟨2, ![4096, 16]⟩ : Shape).Idx → EReal) (b s o : ℕ) : EReal :=
  ∑ r : Fin 16, downAt X Ld b s r.val * rd2 Lu o r.val

/-- The whole result: the main product plus twice the correction (the factor is the f32 word of 2.0, kept as a word:
    it is the same word in both programs and is never evaluated). -/
def G (X : (⟨3, ![4, 2048, 4096]⟩ : Shape).Idx → EReal) (W Sf : (⟨2, ![4096, 4096]⟩ : Shape).Idx → EReal)
    (Ld : (⟨2, ![16, 4096]⟩ : Shape).Idx → EReal) (Lu : (⟨2, ![4096, 16]⟩ : Shape).Idx → EReal) :
    (⟨3, ![4, 2048, 4096]⟩ : Shape).Idx → EReal := fun i =>
  mainAt X W Sf (i 0).val (i 1).val (i 2).val
    + Ideal.ofBits .f32 0x40000000#32 * corrAt X Ld Lu (i 0).val (i 1).val (i 2).val

/-! ## The same function over the activations laid out on two axes

The kernel works on the activations reshaped to [8192, 4096] and produces [8192, 4096]; row `2048 b + s` of either is
row `(b, s)` of the three-axis array. -/

/-- The main product's entry at row `r` of the two-axis activations. -/
def main2At (X2 : (⟨2, ![8192, 4096]⟩ : Shape).Idx → EReal) (W Sf : (⟨2, ![4096, 4096]⟩ : Shape).Idx → EReal)
    (r o : ℕ) : EReal :=
  ∑ k : Fin 4096, rd2 X2 r k.val * (rd2 W o k.val * rd2 Sf o k.val)

/-- The projection of row `r` of the two-axis activations onto direction `d`. -/
def down2At (X2 : (⟨2, ![8192, 4096]⟩ : Shape).Idx → EReal) (Ld : (⟨2, ![16, 4096]⟩ : Shape).Idx → EReal)
    (r d : ℕ) : EReal :=
  ∑ k : Fin 4096, rd2 X2 r k.val * rd2 Ld d k.val

/-- The two-axis result. -/
def G2 (X2 : (⟨2, ![8192, 4096]⟩ : Shape).Idx → EReal) (W Sf : (⟨2, ![4096, 4096]⟩ : Shape).Idx → EReal)
    (Ld : (⟨2, ![16, 4096]⟩ : Shape).Idx → EReal) (Lu : (⟨2, ![4096, 16]⟩ : Shape).Idx → EReal) :
    (⟨2, ![8192, 4096]⟩ : Shape).Idx → EReal := fun z =>
  main2At X2 W Sf (z 0).val (z 1).val
    + Ideal.ofBits .f32 0x40000000#32 * ∑ d : Fin 16, down2At X2 Ld (z 0).val d.val * rd2 Lu (z 1).val d.val

/-- A row of the reshaped activations read at natural coordinates is the three-axis array's row. -/
theorem rd2_reshape (X : (⟨3, ![4, 2048, 4096]⟩ : Shape).Idx → EReal)
    (h : (⟨3, ![4, 2048, 4096]⟩ : Shape).ShapeCasts ⟨2, ![8192, 4096]⟩) (b s k : ℕ) (hb : b < 4) (hs : s < 2048) (hk : k < 4096) :
    rd2 (shapeCast (⟨2, ![8192, 4096]⟩ : Shape) X h) (2048 * b + s) k = rd3 X b s k := by
  unfold rd2 rd3
  rw [dif_pos ⟨by omega, hk⟩, dif_pos ⟨hb, hs, hk⟩]
  exact shapeCast_apply X h _ _ (by
    rewrite [Shape.rowMajor_val_three, Shape.rowMajor_val_two]
    show (b * 2048 + s) * 4096 + k = (2048 * b + s) * 4096 + k
    ring)

/-- So the two-axis result at row `2048 b + s` is the three-axis result at `(b, s)`. -/
theorem G2_reshape (X : (⟨3, ![4, 2048, 4096]⟩ : Shape).Idx → EReal)
    (h : (⟨3, ![4, 2048, 4096]⟩ : Shape).ShapeCasts ⟨2, ![8192, 4096]⟩) (W Sf : (⟨2, ![4096, 4096]⟩ : Shape).Idx → EReal)
    (Ld : (⟨2, ![16, 4096]⟩ : Shape).Idx → EReal) (Lu : (⟨2, ![4096, 16]⟩ : Shape).Idx → EReal)
    (z : (⟨2, ![8192, 4096]⟩ : Shape).Idx) (i : (⟨3, ![4, 2048, 4096]⟩ : Shape).Idx)
    (h0 : (z 0).val = 2048 * (i 0).val + (i 1).val) (h1 : (z 1).val = (i 2).val) :
    G2 (shapeCast (⟨2, ![8192, 4096]⟩ : Shape) X h) W Sf Ld Lu z = G X W Sf Ld Lu i := by
  unfold G2 G main2At mainAt corrAt down2At downAt
  rw [h0, h1]
  have hb : (i 0).val < 4 := (i 0).isLt
  have hs : (i 1).val < 2048 := (i 1).isLt
  congr 1
  · exact Finset.sum_congr rfl fun k _ => by rw [rd2_reshape X h _ _ _ hb hs k.isLt]
  · congr 1
    refine Finset.sum_congr rfl fun d _ => ?_
    congr 1
    exact Finset.sum_congr rfl fun k _ => by rw [rd2_reshape X h _ _ _ hb hs k.isLt]

end Cert.LoraGemm

end
-- ==== Proof.RefSide.lean ====
/-
  The reference's result is the specification `G`.

  The reference multiplies the weight by the expanded scale, contracts the activations with it over the last axis,
  contracts the activations with the down matrix and then with the up matrix, doubles that and adds. Read at an entry
  (b, s, o), each contraction is a plain sum over its axis of products of entries, and these are exactly the sums
  `G` is made of: every operand entry is read at the coordinates the sum's index names.
-/
import proofs.«155338_j26422638805106_1_alg».proof.Proof.Gen.ReferenceIdeal.Read
import proofs.«155338_j26422638805106_1_alg».proof.Proof.Spec

noncomputable section

open scoped BigOperators
open Idealize.ShloMosaic Idealize.ShloMosaic.ValueIdx

namespace Cert.ReferenceIdeal.RefValue

open Cert.ReferenceIdeal Cert.ReferenceIdeal.Read Cert.LoraGemm

/-- Entry by entry, the reference's last stage is `G` of the arguments and of the expanded scale (the reference's own
    fourth stage, which the kernel's host code computes by the same four operations). -/
theorem ref_is_G (x0 : S4x2048x4096.Idx → EReal) (x1 : S4096x4096.Idx → EReal) (x2 : S32x32.Idx → EReal)
    (x3 : S16x4096.Idx → EReal) (x4 : S4096x16.Idx → EReal) :
    val_main_v10 (F := Ideal) x0 x1 x2 x3 x4 = G x0 x1 (val_main_v3 (F := Ideal) x2) x3 x4 := by
  funext i
  rw [val_main_v10_apply, val_main_v5_apply, val_main_v9_apply, val_main_v8_apply, val_main_cst_apply, val_main_v7_apply]
  unfold G mainAt corrAt downAt
  show (∑ k : Fin 4096, x0 (lidx_main_v5 i k) * val_main_v4 (F := Ideal) x1 x2 (ridx_main_v5 i k))
      + Ideal.ofBits .f32 0x40000000#32 * (∑ r : Fin 16, val_main_v6 (F := Ideal) x0 x3 (lidx_main_v7 i r) * x4 (ridx_main_v7 i r)) = _
  congr 1
  · refine Finset.sum_congr rfl fun k _ => ?_
    rw [val_main_v4_apply]
    show x0 (lidx_main_v5 i k) * (x1 (ridx_main_v5 i k) * val_main_v3 (F := Ideal) x2 (ridx_main_v5 i k)) = _
    rw [rd3_of_val x0 (lidx_main_v5 i k) (i 0).val (i 1).val k.val rfl rfl rfl,
      rd2_of_val x1 (ridx_main_v5 i k) (i 2).val k.val rfl rfl,
      rd2_of_val (val_main_v3 (F := Ideal) x2) (ridx_main_v5 i k) (i 2).val k.val rfl rfl]
  · congr 1
    refine Finset.sum_congr rfl fun r _ => ?_
    rw [val_main_v6_apply, rd2_of_val x4 (ridx_main_v7 i r) (i 2).val r.val rfl rfl]
    congr 1
    refine Finset.sum_congr rfl fun k _ => ?_
    rw [rd3_of_val x0 (lidx_main_v6 (lidx_main_v7 i r) k) (i 0).val (i 1).val k.val rfl rfl rfl,
      rd2_of_val x3 (ridx_main_v6 (lidx_main_v7 i r) k) r.val k.val rfl rfl]

end Cert.ReferenceIdeal.RefValue

end
-- ==== Proof.Pieces.lean ====
/-
  What each of the body's three cases leaves behind, as values.

  The body keeps two accumulators between grid points: a 2048 × 512 one for the main product and a 2048 × 16 one for
  the projections. At a point with k = 0 it first stores zeros into both, then adds the point's partial products; at
  every other point it adds to what the point before left; at k = 7 it also stores the output block, reading both
  accumulators after their update. Each lemma names one of these contents as the body's arithmetic term applied to the
  point's input blocks: the first update of a run sees the zeros, a later one sees the carried contents, and the
  output sees the two updated accumulators.
-/
import proofs.«155338_j26422638805106_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- k = 0, main accumulator: the zeros plus the first partial product. -/
theorem mainA (c : Dev nD) (i : grid0.Coords) (a3 : Memref sig .tc .vmem S2048x512 .f32) (h3 : a3.IsWhole) (a4 : Memref sig .tc .vmem S512x512 .f32) (h4 : a4.IsWhole) (a5 : Memref sig .tc .vmem S512x512 .f32) (h5 : a5.IsWhole) (a6 : Memref sig .tc .vmem S16x512 .f32) (h6 : a6.IsWhole) (a7 : Memref sig .tc .vmem S512x16 .f32) (h7 : a7.IsWhole) (a8 : Memref sig .tc .vmem S2048x512 .f32) (h8 : a8.IsWhole) (a9 : Memref sig .tc .vmem S2048x512 .f32) (h9 : a9.IsWhole) (a10 : Memref sig .tc .vmem S2048x16 .f32) (h10 : a10.IsWhole) (hc0 : cond0_0 i) (hc1 : ¬cond0_1 i) (x0 : Vec F S2048x512 .f32) (x1 : Vec F S512x512 .f32) (x2 : Vec F S512x512 .f32) (x3 : Vec F S16x512 .f32) (x4 : Vec F S512x16 .f32) :
    sout0_A_0 c i a3 h3 a4 h4 a5 h5 a6 h6 a7 h7 a8 h8 a9 h9 a10 h10 hc0 hc1 x0 x1 x2 x3 x4 = k0_pay4 x0 x1 x2 k0_pay1 := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S2048x512) hz, View.readCov_unit_zero (S := S2048x512) _ hz]
  simp only [View.readAt_eq_ld, h3.read_unread, h4.read_unread, h5.read_unread, h6.read_unread, h7.read_unread, h8.read_unread, h9.read_unread, h10.read_unread, View.ld_unit_zero (S := S2048x512) hz, View.ld_unit_zero (S := S512x512) hz, View.ld_unit_zero (S := S16x512) hz, View.ld_unit_zero (S := S512x16) hz, View.ld_unit_zero (S := S2048x16) hz]

/-- k = 0, projection accumulator: the zeros plus the first partial projection. -/
theorem downA (c : Dev nD) (i : grid0.Coords) (a3 : Memref sig .tc .vmem S2048x512 .f32) (h3 : a3.IsWhole) (a4 : Memref sig .tc .vmem S512x512 .f32) (h4 : a4.IsWhole) (a5 : Memref sig .tc .vmem S512x512 .f32) (h5 : a5.IsWhole) (a6 : Memref sig .tc .vmem S16x512 .f32) (h6 : a6.IsWhole) (a7 : Memref sig .tc .vmem S512x16 .f32) (h7 : a7.IsWhole) (a8 : Memref sig .tc .vmem S2048x512 .f32) (h8 : a8.IsWhole) (a9 : Memref sig .tc .vmem S2048x512 .f32) (h9 : a9.IsWhole) (a10 : Memref sig .tc .vmem S2048x16 .f32) (h10 : a10.IsWhole) (hc0 : cond0_0 i) (hc1 : ¬cond0_1 i) (x0 : Vec F S2048x512 .f32) (x1 : Vec F S512x512 .f32) (x2 : Vec F S512x512 .f32) (x3 : Vec F S16x512 .f32) (x4 : Vec F S512x16 .f32) :
    sout0_A_1 c i a3 h3 a4 h4 a5 h5 a6 h6 a7 h7 a8 h8 a9 h9 a10 h10 hc0 hc1 x0 x1 x2 x3 x4 = k0_pay5 x0 x3 k0_pay2 := by
  unfold sout0_A_1
  rw [View.read_writes_eq_canon _ _ _ (scover0_A_1 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S2048x16) hz, View.readCov_unit_zero (S := S2048x16) _ hz]
  simp only [View.readAt_eq_ld, h3.read_unread, h4.read_unread, h5.read_unread, h6.read_unread, h7.read_unread, h8.read_unread, h9.read_unread, h10.read_unread, View.ld_unit_zero (S := S2048x512) hz, View.ld_unit_zero (S := S512x512) hz, View.ld_unit_zero (S := S16x512) hz, View.ld_unit_zero (S := S512x16) hz, View.ld_unit_zero (S := S2048x16) hz]

/-- 0 < k < 7, main accumulator: the carried contents plus this point's partial product. -/
theorem mainB (c : Dev nD) (i : grid0.Coords) (a3 : Memref sig .tc .vmem S2048x512 .f32) (h3 : a3.IsWhole) (a4 : Memref sig .tc .vmem S512x512 .f32) (h4 : a4.IsWhole) (a5 : Memref sig .tc .vmem S512x512 .f32) (h5 : a5.IsWhole) (a6 : Memref sig .tc .vmem S16x512 .f32) (h6 : a6.IsWhole) (a7 : Memref sig .tc .vmem S512x16 .f32) (h7 : a7.IsWhole) (a8 : Memref sig .tc .vmem S2048x512 .f32) (h8 : a8.IsWhole) (a9 : Memref sig .tc .vmem S2048x512 .f32) (h9 : a9.IsWhole) (a10 : Memref sig .tc .vmem S2048x16 .f32) (h10 : a10.IsWhole) (hc0 : ¬cond0_0 i) (hc1 : ¬cond0_1 i) (x0 : Vec F S2048x512 .f32) (x1 : Vec F S512x512 .f32) (x2 : Vec F S512x512 .f32) (x3 : Vec F S16x512 .f32) (x4 : Vec F S512x16 .f32) (xs0 : Vec F S2048x512 .f32) (xs1 : Vec F S2048x16 .f32) :
    sout0_B_0 c i a3 h3 a4 h4 a5 h5 a6 h6 a7 h7 a8 h8 a9 h9 a10 h10 hc0 hc1 x0 x1 x2 x3 x4 xs0 xs1 = k0_pay4 x0 x1 x2 xs0 := by
  unfold sout0_B_0
  rw [View.read_writes_eq_canon _ _ _ (scover0_B_0 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz]
  simp only [View.readAt_eq_ld, h3.read_unread, h4.read_unread, h5.read_unread, h6.read_unread, h7.read_unread, h8.read_unread, h9.read_unread, h10.read_unread, View.ld_unit_zero (S := S2048x512) hz, View.ld_unit_zero (S := S512x512) hz, View.ld_unit_zero (S := S16x512) hz, View.ld_unit_zero (S := S512x16) hz, View.ld_unit_zero (S := S2048x16) hz]

/-- 0 < k < 7, projection accumulator. -/
theorem downB (c : Dev nD) (i : grid0.Coords) (a3 : Memref sig .tc .vmem S2048x512 .f32) (h3 : a3.IsWhole) (a4 : Memref sig .tc .vmem S512x512 .f32) (h4 : a4.IsWhole) (a5 : Memref sig .tc .vmem S512x512 .f32) (h5 : a5.IsWhole) (a6 : Memref sig .tc .vmem S16x512 .f32) (h6 : a6.IsWhole) (a7 : Memref sig .tc .vmem S512x16 .f32) (h7 : a7.IsWhole) (a8 : Memref sig .tc .vmem S2048x512 .f32) (h8 : a8.IsWhole) (a9 : Memref sig .tc .vmem S2048x512 .f32) (h9 : a9.IsWhole) (a10 : Memref sig .tc .vmem S2048x16 .f32) (h10 : a10.IsWhole) (hc0 : ¬cond0_0 i) (hc1 : ¬cond0_1 i) (x0 : Vec F S2048x512 .f32) (x1 : Vec F S512x512 .f32) (x2 : Vec F S512x512 .f32) (x3 : Vec F S16x512 .f32) (x4 : Vec F S512x16 .f32) (xs0 : Vec F S2048x512 .f32) (xs1 : Vec F S2048x16 .f32) :
    sout0_B_1 c i a3 h3 a4 h4 a5 h5 a6 h6 a7 h7 a8 h8 a9 h9 a10 h10 hc0 hc1 x0 x1 x2 x3 x4 xs0 xs1 = k0_pay5 x0 x3 xs1 := by
  unfold sout0_B_1
  rw [View.read_writes_eq_canon _ _ _ (scover0_B_1 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz]
  simp only [View.readAt_eq_ld, h3.read_unread, h4.read_unread, h5.read_unread, h6.read_unread, h7.read_unread, h8.read_unread, h9.read_unread, h10.read_unread, View.ld_unit_zero (S := S2048x512) hz, View.ld_unit_zero (S := S512x512) hz, View.ld_unit_zero (S := S16x512) hz, View.ld_unit_zero (S := S512x16) hz, View.ld_unit_zero (S := S2048x16) hz]

/-- k = 7, main accumulator: as at the points before. -/
theorem mainC (c : Dev nD) (i : grid0.Coords) (a3 : Memref sig .tc .vmem S2048x512 .f32) (h3 : a3.IsWhole) (a4 : Memref sig .tc .vmem S512x512 .f32) (h4 : a4.IsWhole) (a5 : Memref sig .tc .vmem S512x512 .f32) (h5 : a5.IsWhole) (a6 : Memref sig .tc .vmem S16x512 .f32) (h6 : a6.IsWhole) (a7 : Memref sig .tc .vmem S512x16 .f32) (h7 : a7.IsWhole) (a8 : Memref sig .tc .vmem S2048x512 .f32) (h8 : a8.IsWhole) (a9 : Memref sig .tc .vmem S2048x512 .f32) (h9 : a9.IsWhole) (a10 : Memref sig .tc .vmem S2048x16 .f32) (h10 : a10.IsWhole) (hc0 : ¬cond0_0 i) (hc1 : cond0_1 i) (x0 : Vec F S2048x512 .f32) (x1 : Vec F S512x512 .f32) (x2 : Vec F S512x512 .f32) (x3 : Vec F S16x512 .f32) (x4 : Vec F S512x16 .f32) (xs0 : Vec F S2048x512 .f32) (xs1 : Vec F S2048x16 .f32) :
    sout0_C_0 c i a3 h3 a4 h4 a5 h5 a6 h6 a7 h7 a8 h8 a9 h9 a10 h10 hc0 hc1 x0 x1 x2 x3 x4 xs0 xs1 = k0_pay4 x0 x1 x2 xs0 := by
  unfold sout0_C_0
  rw [View.read_writes_eq_canon _ _ _ (scover0_C_0 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, View.ld_unit_zero (S := S2048x512) hz, View.ld_unit_zero (S := S512x512) hz, View.ld_unit_zero (S := S16x512) hz, View.ld_unit_zero (S := S512x16) hz, View.ld_unit_zero (S := S2048x16) hz]

/-- k = 7, projection accumulator: as at the points before. -/
theorem downC (c : Dev nD) (i : grid0.Coords) (a3 : Memref sig .tc .vmem S2048x512 .f32) (h3 : a3.IsWhole) (a4 : Memref sig .tc .vmem S512x512 .f32) (h4 : a4.IsWhole) (a5 : Memref sig .tc .vmem S512x512 .f32) (h5 : a5.IsWhole) (a6 : Memref sig .tc .vmem S16x512 .f32) (h6 : a6.IsWhole) (a7 : Memref sig .tc .vmem S512x16 .f32) (h7 : a7.IsWhole) (a8 : Memref sig .tc .vmem S2048x512 .f32) (h8 : a8.IsWhole) (a9 : Memref sig .tc .vmem S2048x512 .f32) (h9 : a9.IsWhole) (a10 : Memref sig .tc .vmem S2048x16 .f32) (h10 : a10.IsWhole) (hc0 : ¬cond0_0 i) (hc1 : cond0_1 i) (x0 : Vec F S2048x512 .f32) (x1 : Vec F S512x512 .f32) (x2 : Vec F S512x512 .f32) (x3 : Vec F S16x512 .f32) (x4 : Vec F S512x16 .f32) (xs0 : Vec F S2048x512 .f32) (xs1 : Vec F S2048x16 .f32) :
    sout0_C_1 c i a3 h3 a4 h4 a5 h5 a6 h6 a7 h7 a8 h8 a9 h9 a10 h10 hc0 hc1 x0 x1 x2 x3 x4 xs0 xs1 = k0_pay5 x0 x3 xs1 := by
  unfold sout0_C_1
  rw [View.read_writes_eq_canon _ _ _ (scover0_C_1 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, View.ld_unit_zero (S := S2048x512) hz, View.ld_unit_zero (S := S512x512) hz, View.ld_unit_zero (S := S16x512) hz, View.ld_unit_zero (S := S512x16) hz, View.ld_unit_zero (S := S2048x16) hz]

/-- k = 7, the output block: the updated main accumulator plus twice the updated projections recombined by the up
    block. -/
theorem outC (c : Dev nD) (i : grid0.Coords) (a3 : Memref sig .tc .vmem S2048x512 .f32) (h3 : a3.IsWhole) (a4 : Memref sig .tc .vmem S512x512 .f32) (h4 : a4.IsWhole) (a5 : Memref sig .tc .vmem S512x512 .f32) (h5 : a5.IsWhole) (a6 : Memref sig .tc .vmem S16x512 .f32) (h6 : a6.IsWhole) (a7 : Memref sig .tc .vmem S512x16 .f32) (h7 : a7.IsWhole) (a8 : Memref sig .tc .vmem S2048x512 .f32) (h8 : a8.IsWhole) (a9 : Memref sig .tc .vmem S2048x512 .f32) (h9 : a9.IsWhole) (a10 : Memref sig .tc .vmem S2048x16 .f32) (h10 : a10.IsWhole) (hc0 : ¬cond0_0 i) (hc1 : cond0_1 i) (x0 : Vec F S2048x512 .f32) (x1 : Vec F S512x512 .f32) (x2 : Vec F S512x512 .f32) (x3 : Vec F S16x512 .f32) (x4 : Vec F S512x16 .f32) (xs0 : Vec F S2048x512 .f32) (xs1 : Vec F S2048x16 .f32) :
    out0_C_5 c i a3 h3 a4 h4 a5 h5 a6 h6 a7 h7 a8 h8 a9 h9 a10 h10 hc0 hc1 x0 x1 x2 x3 x4 xs0 xs1 = k0_pay6 x4 (k0_pay5 x0 x3 xs1) (k0_pay4 x0 x1 x2 xs0) := by
  unfold out0_C_5
  rw [View.read_writes_eq_canon _ _ _ (cover0_C_5 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, View.ld_unit_zero (S := S2048x512) hz, View.ld_unit_zero (S := S512x512) hz, View.ld_unit_zero (S := S16x512) hz, View.ld_unit_zero (S := S512x16) hz, View.ld_unit_zero (S := S2048x16) hz, View.readCov_unit_zero (S := S2048x512) _ hz, View.readCov_unit_zero (S := S2048x16) _ hz]

end Cert.KernelIdeal.Pieces

end
-- ==== Proof.Blocks.lean ====
/-
  What the kernel's windows read, at array coordinates.

  The grid has 4 × 8 × 8 points; point `t` has coordinates (i, j, k) = (t / 64, t / 8 mod 8, t mod 8). At that point
  the kernel sees rows `2048 i …` and columns `512 k …` of the activations (reshaped to [8192, 4096]), rows `512 j …`
  and columns `512 k …` of the weight and of the expanded scale, all 16 rows and columns `512 k …` of the down matrix,
  and rows `512 j …` of the up matrix. An entry of a block is the array's entry at block index × block size + the
  coordinate inside the block.

  Two arrays the region finds were written by host operations before it: the activations reshaped to two axes
  (row `2048 b + s` is row `(b, s)`), and the expanded scale.
-/
import proofs.«155338_j26422638805106_1_alg».proof.Proof.Gen.KernelIdeal.Frame
import proofs.«155338_j26422638805106_1_alg».proof.Proof.BlockSum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided once over the 256 points. -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 8 % 8 ∧ win0_2.index t (1 : Fin 2) = t.val % 8
    ∧ win0_3.index t (0 : Fin 2) = 0 ∧ win0_3.index t (1 : Fin 2) = t.val % 8
    ∧ win0_4.index t (0 : Fin 2) = t.val / 8 % 8 ∧ win0_4.index t (1 : Fin 2) = 0
    ∧ win0_5.index t (0 : Fin 2) = t.val / 64 ∧ win0_5.index t (1 : Fin 2) = t.val / 8 % 8 :=
  (by decide +kernel : ∀ t : Fin grid0.N, _)

/-- The blocks and arrays under their literal types. -/
abbrev xblk (c : Dev nD) (t : Fin cfg0.N) : Vec F S2048x512 .f32 := iblk m c 0 t
abbrev wblk (c : Dev nD) (t : Fin cfg0.N) : Vec F S512x512 .f32 := iblk m c 1 t
abbrev sblk (c : Dev nD) (t : Fin cfg0.N) : Vec F S512x512 .f32 := iblk m c 2 t
abbrev dblk (c : Dev nD) (t : Fin cfg0.N) : Vec F S16x512 .f32 := iblk m c 3 t
abbrev ublk (c : Dev nD) (t : Fin cfg0.N) : Vec F S512x16 .f32 := iblk m c 4 t
abbrev xarr (c : Dev nD) : S8192x4096.Idx → Elt F .f32 := V m c main_v0
abbrev warr (c : Dev nD) : S4096x4096.Idx → Elt F .f32 := V m c main_arg1
abbrev sarr (c : Dev nD) : S4096x4096.Idx → Elt F .f32 := V m c main_v4
abbrev darr (c : Dev nD) : S16x4096.Idx → Elt F .f32 := V m c main_arg3
abbrev uarr (c : Dev nD) : S4096x16.Idx → Elt F .f32 := V m c main_arg4

/-- An entry of the activation block is the reshaped activations' entry at row `2048 i + p`, column `512 k + q`. -/
theorem xblk_apply (c : Dev nD) (t : Fin cfg0.N) (y : S2048x512.Idx) (z : S8192x4096.Idx)
    (h0 : (z 0).val = 2048 * (t.val / 64) + (y 0).val) (h1 : (z 1).val = 512 * (t.val % 8) + (y 1).val) :
    xblk m c t y = xarr m c z := by
  unfold xblk xarr iblk
  rw [View.read_apply]
  show V m c main_v0 _ = V m c main_v0 z
  congr 1
  funext a; apply Fin.ext
  obtain ⟨e0, e1, -⟩ := idx_facts t
  match a with
  | ⟨0, _⟩ => show win0_0.index t (0 : Fin 2) * 2048 + 1 * (y 0).val = (z 0).val; rw [e0, h0]; omega
  | ⟨1, _⟩ => show win0_0.index t (1 : Fin 2) * 512 + 1 * (y 1).val = (z 1).val; rw [e1, h1]; omega

/-- An entry of the weight block: row `512 j + p`, column `512 k + q`. -/
theorem wblk_apply (c : Dev nD) (t : Fin cfg0.N) (y : S512x512.Idx) (z : S4096x4096.Idx)
    (h0 : (z 0).val = 512 * (t.val / 8 % 8) + (y 0).val) (h1 : (z 1).val = 512 * (t.val % 8) + (y 1).val) :
    wblk m c t y = warr m c z := by
  unfold wblk warr iblk
  rw [View.read_apply]
  show V m c main_arg1 _ = V m c main_arg1 z
  congr 1
  funext a; apply Fin.ext
  obtain ⟨-, -, e0, e1, -⟩ := idx_facts t
  match a with
  | ⟨0, _⟩ => show win0_1.index t (0 : Fin 2) * 512 + 1 * (y 0).val = (z 0).val; rw [e0, h0]; omega
  | ⟨1, _⟩ => show win0_1.index t (1 : Fin 2) * 512 + 1 * (y 1).val = (z 1).val; rw [e1, h1]; omega

/-- An entry of the scale block: the same rows and columns of the expanded scale. -/
theorem sblk_apply (c : Dev nD) (t : Fin cfg0.N) (y : S512x512.Idx) (z : S4096x4096.Idx)
    (h0 : (z 0).val = 512 * (t.val / 8 % 8) + (y 0).val) (h1 : (z 1).val = 512 * (t.val % 8) + (y 1).val) :
    sblk m c t y = sarr m c z := by
  unfold sblk sarr iblk
  rw [View.read_apply]
  show V m c main_v4 _ = V m c main_v4 z
  congr 1
  funext a; apply Fin.ext
  obtain ⟨-, -, -, -, e0, e1, -⟩ := idx_facts t
  match a with
  | ⟨0, _⟩ => show win0_2.index t (0 : Fin 2) * 512 + 1 * (y 0).val = (z 0).val; rw [e0, h0]; omega
  | ⟨1, _⟩ => show win0_2.index t (1 : Fin 2) * 512 + 1 * (y 1).val = (z 1).val; rw [e1, h1]; omega

/-- An entry of the down-matrix block: row `r`, column `512 k + q`. -/
theorem dblk_apply (c : Dev nD) (t : Fin cfg0.N) (y : S16x512.Idx) (z : S16x4096.Idx)
    (h0 : (z 0).val = (y 0).val) (h1 : (z 1).val = 512 * (t.val % 8) + (y 1).val) :
    dblk m c t y = darr m c z := by
  unfold dblk darr iblk
  rw [View.read_apply]
  show V m c main_arg3 _ = V m c main_arg3 z
  congr 1
  funext a; apply Fin.ext
  obtain ⟨-, -, -, -, -, -, e0, e1, -⟩ := idx_facts t
  match a with
  | ⟨0, _⟩ => show win0_3.index t (0 : Fin 2) * 16 + 1 * (y 0).val = (z 0).val; rw [e0, h0]; omega
  | ⟨1, _⟩ => show win0_3.index t (1 : Fin 2) * 512 + 1 * (y 1).val = (z 1).val; rw [e1, h1]; omega

/-- An entry of the up-matrix block: row `512 j + p`, column `r`. -/
theorem ublk_apply (c : Dev nD) (t : Fin cfg0.N) (y : S512x16.Idx) (z : S4096x16.Idx)
    (h0 : (z 0).val = 512 * (t.val / 8 % 8) + (y 0).val) (h1 : (z 1).val = (y 1).val) :
    ublk m c t y = uarr m c z := by
  unfold ublk uarr iblk
  rw [View.read_apply]
  show V m c main_arg4 _ = V m c main_arg4 z
  congr 1
  funext a; apply Fin.ext
  obtain ⟨-, -, -, -, -, -, -, -, e0, e1, -⟩ := idx_facts t
  match a with
  | ⟨0, _⟩ => show win0_4.index t (0 : Fin 2) * 512 + 1 * (y 0).val = (z 0).val; rw [e0, h0]; omega
  | ⟨1, _⟩ => show win0_4.index t (1 : Fin 2) * 16 + 1 * (y 1).val = (z 1).val; rw [e1, h1]; omega

/-- The activations as the region finds them: the argument reshaped to two axes. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The expanded scale as the region finds it: broadcast, reshape, broadcast, reshape of the 32 × 32 table. -/
theorem sarr_eq (c : Dev nD) :
    sarr m c = shapeCast S4096x4096 (broadcastInDim S4096x32x128 ![0, 1] bcast_S4096x32_S4096x32x128_0_1
      (shapeCast S4096x32 (broadcastInDim S32x128x32 ![0, 2] bcast_S32x32_S32x128x32_0_2 (m ((c : Thread nD τ).loc main_arg2)))
        shapeCasts_S32x128x32_S4096x32)) shapeCasts_S4096x32x128_S4096x4096 := by
  show StableHlo.after hostOps0 (fun b => m (c, b)) (Proc.devRef .tc main_v4) = _
  after_results
  rfl

theorem warr_eq (c : Dev nD) : warr m c = m ((c : Thread nD τ).loc main_arg1) := V_main_arg1 m c
theorem darr_eq (c : Dev nD) : darr m c = m ((c : Thread nD τ).loc main_arg3) := V_main_arg3 m c
theorem uarr_eq (c : Dev nD) : uarr m c = m ((c : Thread nD τ).loc main_arg4) := V_main_arg4 m c

/-- Row `2048 b + s` of the reshaped activations is row `(b, s)` of the argument. -/
theorem reshape_rows {α : Type} (X : S4x2048x4096.Idx → α) (z : S8192x4096.Idx) (k : S4x2048x4096.Idx)
    (h0 : (z 0).val = 2048 * (k 0).val + (k 1).val) (h1 : (z 1).val = (k 2).val) :
    shapeCast S8192x4096 X shapeCasts_S4x2048x4096_S8192x4096 z = X k :=
  shapeCast_apply X shapeCasts_S4x2048x4096_S8192x4096 z k (by
    rewrite [Shape.rowMajor_val_three, Shape.rowMajor_val_two]
    show ((k 0).val * 2048 + (k 1).val) * 4096 + (k 2).val = (z 0).val * 4096 + (z 1).val
    rw [h0, h1]; ring)

end Cert.KernelIdeal.Blocks

end
-- ==== Proof.Dots.lean ====
/-
  The kernel's three matrix products read at an entry.

  Each contracts the SECOND axis of both operands (a product with the right operand transposed), into a zero
  accumulator: entry (p, q) of the result is the sum over `k` of left (p, k) times right (q, k). Over the extended
  reals the change of float format on the operands is the identity and nothing is rounded, so this sum is all there is.
-/
import proofs.«155338_j26422638805106_1_alg».proof.Proof.Gen.KernelIdeal
import Idealize.ShloMosaic.Lib.ValueIdx
import Idealize.ShloMosaic.PureOps.Ideal.Laws

noncomputable section

open scoped BigOperators
open Idealize.ShloMosaic Idealize.ShloMosaic.ValueIdx

namespace Cert.KernelIdeal.Dots

open Cert.KernelIdeal Cert.KernelIdeal.Gen

/-! ## main: the main product's partial: activations block [2048, 512] against the scaled weight block [512, 512], both contracted over their second axis -/

theorem lhs_main_0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem lhs_main_1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
theorem rhs_main_0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem rhs_main_1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- Entry (p, q): the sum over the contracted axis of left (p, k) times right (q, k). -/
theorem main_apply {φ₁ φ₂ : FTy} (A : FVec Ideal S2048x512 φ₁) (B : FVec Ideal S512x512 φ₂) (p : Fin 2048) (q : Fin 512) :
    matmul dot_S2048x512_S512x512_S2048x512_1_1_0_0_n_n none A B (constant S2048x512 .f32 0x00000000#32) (ix2 p q)
      = ∑ k : Fin 512, A (ix2 p k) * B (ix2 q k) := by
  simp only [matmul]
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 p q) ((contrEquiv1 dot_S2048x512_S512x512_S2048x512_1_1_0_0_n_n 512 rfl rfl).symm k) = ix2 p k := funext fun a => Fin.ext (by
    match a with
    | ⟨0, _⟩ => exact lhs_main_0 _ _
    | ⟨1, _⟩ => exact (lhs_main_1 _ _).trans hk)
  have er : dot_S2048x512_S512x512_S2048x512_1_1_0_0_n_n.rhsIdx (ix2 p q) ((contrEquiv1 dot_S2048x512_S512x512_S2048x512_1_1_0_0_n_n 512 rfl rfl).symm k) = ix2 q k := funext fun a => Fin.ext (by
    match a with
    | ⟨0, _⟩ => exact rhs_main_0 _ _
    | ⟨1, _⟩ => exact (rhs_main_1 _ _).trans hk)
  rw [el, er]

/-! ## down: the projection's partial: activations block [2048, 512] against the down block [16, 512] -/

theorem lhs_down_0 (i : S2048x16.Idx) (q : dot_S2048x512_S16x512_S2048x16_1_1_0_0_n_n.contr.Idx) :
    (dot_S2048x512_S16x512_S2048x16_1_1_0_0_n_n.lhsIdx i q 0).val = (i 0).val := by
  unfold DotDims.lhsIdx
  rw [dif_neg (show ¬(0 : Fin S2048x512.rank) ∈ dot_S2048x512_S16x512_S2048x16_1_1_0_0_n_n.lhsBatch by decide), dif_pos (show (0 : Fin S2048x512.rank) ∈ dot_S2048x512_S16x512_S2048x16_1_1_0_0_n_n.lhsNonContracting by decide)]
  rfl
theorem lhs_down_1 (i : S2048x16.Idx) (q : dot_S2048x512_S16x512_S2048x16_1_1_0_0_n_n.contr.Idx) :
    (dot_S2048x512_S16x512_S2048x16_1_1_0_0_n_n.lhsIdx i q 1).val = (q ⟨0, by decide⟩).val :=
  dot_S2048x512_S16x512_S2048x16_1_1_0_0_n_n.lhsIdx_val_of_single rfl i q
theorem rhs_down_0 (i : S2048x16.Idx) (q : dot_S2048x512_S16x512_S2048x16_1_1_0_0_n_n.contr.Idx) :
    (dot_S2048x512_S16x512_S2048x16_1_1_0_0_n_n.rhsIdx i q 0).val = (i 1).val := by
  unfold DotDims.rhsIdx
  rw [dif_neg (show ¬(0 : Fin S16x512.rank) ∈ dot_S2048x512_S16x512_S2048x16_1_1_0_0_n_n.rhsBatch by decide), dif_pos (show (0 : Fin S16x512.rank) ∈ dot_S2048x512_S16x512_S2048x16_1_1_0_0_n_n.rhsNonContracting by decide)]
  rfl
theorem rhs_down_1 (i : S2048x16.Idx) (q : dot_S2048x512_S16x512_S2048x16_1_1_0_0_n_n.contr.Idx) :
    (dot_S2048x512_S16x512_S2048x16_1_1_0_0_n_n.rhsIdx i q 1).val = (q ⟨0, by decide⟩).val :=
  dot_S2048x512_S16x512_S2048x16_1_1_0_0_n_n.rhsIdx_val_of_single rfl i q

/-- Entry (p, q): the sum over the contracted axis of left (p, k) times right (q, k). -/
theorem down_apply {φ₁ φ₂ : FTy} (A : FVec Ideal S2048x512 φ₁) (B : FVec Ideal S16x512 φ₂) (p : Fin 2048) (q : Fin 16) :
    matmul dot_S2048x512_S16x512_S2048x16_1_1_0_0_n_n none A B (constant S2048x16 .f32 0x00000000#32) (ix2 p q)
      = ∑ k : Fin 512, A (ix2 p k) * B (ix2 q k) := by
  simp only [matmul]
  rw [Ideal.matmul_constant_zero_apply, ← Equiv.sum_comp (contrEquiv1 dot_S2048x512_S16x512_S2048x16_1_1_0_0_n_n 512 rfl rfl).symm]
  refine Finset.sum_congr rfl fun k _ => ?_
  have hk := contrEquiv1_symm_val dot_S2048x512_S16x512_S2048x16_1_1_0_0_n_n 512 rfl rfl k
  have el : dot_S2048x512_S16x512_S2048x16_1_1_0_0_n_n.lhsIdx (ix2 p q) ((contrEquiv1 dot_S2048x512_S16x512_S2048x16_1_1_0_0_n_n 512 rfl rfl).symm k) = ix2 p k := funext fun a => Fin.ext (by
    match a with
    | ⟨0, _⟩ => exact lhs_down_0 _ _
    | ⟨1, _⟩ => exact (lhs_down_1 _ _).trans hk)
  have er : dot_S2048x512_S16x512_S2048x16_1_1_0_0_n_n.rhsIdx (ix2 p q) ((contrEquiv1 dot_S2048x512_S16x512_S2048x16_1_1_0_0_n_n 512 rfl rfl).symm k) = ix2 q k := funext fun a => Fin.ext (by
    match a with
    | ⟨0, _⟩ => exact rhs_down_0 _ _
    | ⟨1, _⟩ => exact (rhs_down_1 _ _).trans hk)
  rw [el, er]

/-! ## up: the recombination: projections [2048, 16] against the up block [512, 16] -/

theorem lhs_up_0 (i : S2048x512.Idx) (q : dot_S2048x16_S512x16_S2048x512_1_1_0_0_n_n.contr.Idx) :
    (dot_S2048x16_S512x16_S2048x512_1_1_0_0_n_n.lhsIdx i q 0).val = (i 0).val := by
  unfold DotDims.lhsIdx
  rw [dif_neg (show ¬(0 : Fin S2048x16.rank) ∈ dot_S2048x16_S512x16_S2048x512_1_1_0_0_n_n.lhsBatch by decide), dif_pos (show (0 : Fin S2048x16.rank) ∈ dot_S2048x16_S512x16_S2048x512_1_1_0_0_n_n.lhsNonContracting by decide)]
  rfl
theorem lhs_up_1 (i : S2048x512.Idx) (q : dot_S2048x16_S512x16_S2048x512_1_1_0_0_n_n.contr.Idx) :
    (dot_S2048x16_S512x16_S2048x512_1_1_0_0_n_n.lhsIdx i q 1).val = (q ⟨0, by decide⟩).val :=
  dot_S2048x16_S512x16_S2048x512_1_1_0_0_n_n.lhsIdx_val_of_single rfl i q
theorem rhs_up_0 (i : S2048x512.Idx) (q : dot_S2048x16_S512x16_S2048x512_1_1_0_0_n_n.contr.Idx) :
    (dot_S2048x16_S512x16_S2048x512_1_1_0_0_n_n.rhsIdx i q 0).val = (i 1).val := by
  unfold DotDims.rhsIdx
  rw [dif_neg (show ¬(0 : Fin S512x16.rank) ∈ dot_S2048x16_S512x16_S2048x512_1_1_0_0_n_n.rhsBatch by decide), dif_pos (show (0 : Fin S512x16.rank) ∈ dot_S2048x16_S512x16_S2048x512_1_1_0_0_n_n.rhsNonContracting by decide)]
  rfl
theorem rhs_up_1 (i : S2048x512.Idx) (q : dot_S2048x16_S512x16_S2048x512_1_1_0_0_n_n.contr.Idx) :
    (dot_S2048x16_S512x16_S2048x512_1_1_0_0_n_n.rhsIdx i q 1).val = (q ⟨0, by decide⟩).val :=
  dot_S2048x16_S512x16_S2048x512_1_1_0_0_n_n.rhsIdx_val_of_single rfl i q

/-- Entry (p, q): the sum over the contracted axis of left (p, k) times right (q, k). -/
theorem up_apply {φ₁ φ₂ : FTy} (A : FVec Ideal S2048x16 φ₁) (B : FVec Ideal S512x16 φ₂) (p : Fin 2048) (q : Fin 512) :
    matmul dot_S2048x16_S512x16_S2048x512_1_1_0_0_n_n none A B (constant S2048x512 .f32 0x00000000#32) (ix2 p q)
      = ∑ k : Fin 16, A (ix2 p k) * B (ix2 q k) := by
  simp only [matmul]
  rw [Ideal.matmul_constant_zero_apply, ← Equiv.sum_comp (contrEquiv1 dot_S2048x16_S512x16_S2048x512_1_1_0_0_n_n 16 rfl rfl).symm]
  refine Finset.sum_congr rfl fun k _ => ?_
  have hk := contrEquiv1_symm_val dot_S2048x16_S512x16_S2048x512_1_1_0_0_n_n 16 rfl rfl k
  have el : dot_S2048x16_S512x16_S2048x512_1_1_0_0_n_n.lhsIdx (ix2 p q) ((contrEquiv1 dot_S2048x16_S512x16_S2048x512_1_1_0_0_n_n 16 rfl rfl).symm k) = ix2 p k := funext fun a => Fin.ext (by
    match a with
    | ⟨0, _⟩ => exact lhs_up_0 _ _
    | ⟨1, _⟩ => exact (lhs_up_1 _ _).trans hk)
  have er : dot_S2048x16_S512x16_S2048x512_1_1_0_0_n_n.rhsIdx (ix2 p q) ((contrEquiv1 dot_S2048x16_S512x16_S2048x512_1_1_0_0_n_n 16 rfl rfl).symm k) = ix2 q k := funext fun a => Fin.ext (by
    match a with
    | ⟨0, _⟩ => exact rhs_up_0 _ _
    | ⟨1, _⟩ => exact (rhs_up_1 _ _).trans hk)
  rw [el, er]

end Cert.KernelIdeal.Dots

end
-- ==== Proof.Accum.lean ====
/-
  The two accumulators, point by point, as sums.

  Along a run of eight points with the same (i, j) the main accumulator is reset at k = 0 and then gains one partial
  product per point: after the point with offset k it holds zero plus the partial products of offsets 0 … k. The
  projection accumulator does the same with the partial projections. At the run's last point the output block is the
  main accumulator plus twice the projections recombined by the up block. Each partial product, read at an entry, is
  a sum over the 512 columns of the point's blocks, and those are columns `512 k …` of the arrays.
-/
import proofs.«155338_j26422638805106_1_alg».proof.Proof.Pieces
import proofs.«155338_j26422638805106_1_alg».proof.Proof.Blocks
import proofs.«155338_j26422638805106_1_alg».proof.Proof.Dots
import proofs.«155338_j26422638805106_1_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks Cert.KernelIdeal.Pieces Cert.KernelIdeal.Dots Cert.LoraGemm

/-! ## At any instance: resets, steps, and the fold -/

section AnyInstance

variable {F : FTy → Type} [FloatOps F]
variable (m : (ℓ : Loc nD τ sig) → Buf (Elt F) ℓ)

/-- The main accumulator after point `n`. -/
abbrev accMain (c : Dev nD) (n : ℕ) (h : n < cfg0.N) : Vec F S2048x512 .f32 := (outsAt0 m c n h).2.1
/-- The projection accumulator after point `n`. -/
abbrev accDown (c : Dev nD) (n : ℕ) (h : n < cfg0.N) : Vec F S2048x16 .f32 := (outsAt0 m c n h).2.2

/-- What a run's first point leaves in the main accumulator: zeros plus its partial product. -/
def mainReset (c : Dev nD) (n : ℕ) (h : n < cfg0.N) : Vec F S2048x512 .f32 :=
  k0_pay4 (xblk m c ⟨n, h⟩) (wblk m c ⟨n, h⟩) (sblk m c ⟨n, h⟩) k0_pay1
/-- What a later point makes of the main accumulator. -/
def mainStep (c : Dev nD) (n : ℕ) (h : n < cfg0.N) (acc : Vec F S2048x512 .f32) : Vec F S2048x512 .f32 :=
  k0_pay4 (xblk m c ⟨n, h⟩) (wblk m c ⟨n, h⟩) (sblk m c ⟨n, h⟩) acc
/-- What a run's first point leaves in the projection accumulator. -/
def downReset (c : Dev nD) (n : ℕ) (h : n < cfg0.N) : Vec F S2048x16 .f32 :=
  k0_pay5 (xblk m c ⟨n, h⟩) (dblk m c ⟨n, h⟩) k0_pay2
/-- What a later point makes of the projection accumulator. -/
def downStep (c : Dev nD) (n : ℕ) (h : n < cfg0.N) (acc : Vec F S2048x16 .f32) : Vec F S2048x16 .f32 :=
  k0_pay5 (xblk m c ⟨n, h⟩) (dblk m c ⟨n, h⟩) acc

theorem accMain_reset (c : Dev nD) (n : ℕ) (h : n < cfg0.N) (h0 : n % 8 = 0) :
    accMain m c n h = mainReset m c n h := by
  have h1 : ¬n % 8 = 7 := by omega
  show (outsAt0 m c n h).2.1 = _
  rw [outsAt0_A m c ⟨n, h⟩ h0 h1]
  dsimp only
  exact mainA (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hq => h1 ((hcond0_1 ⟨n, h⟩).mp hq)) (iblk m c 0 ⟨n, h⟩) (iblk m c 1 ⟨n, h⟩) (iblk m c 2 ⟨n, h⟩) (iblk m c 3 ⟨n, h⟩) (iblk m c 4 ⟨n, h⟩)

theorem accDown_reset (c : Dev nD) (n : ℕ) (h : n < cfg0.N) (h0 : n % 8 = 0) :
    accDown m c n h = downReset m c n h := by
  have h1 : ¬n % 8 = 7 := by omega
  show (outsAt0 m c n h).2.2 = _
  rw [outsAt0_A m c ⟨n, h⟩ h0 h1]
  dsimp only
  exact downA (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hq => h1 ((hcond0_1 ⟨n, h⟩).mp hq)) (iblk m c 0 ⟨n, h⟩) (iblk m c 1 ⟨n, h⟩) (iblk m c 2 ⟨n, h⟩) (iblk m c 3 ⟨n, h⟩) (iblk m c 4 ⟨n, h⟩)

theorem accMain_step (c : Dev nD) (n : ℕ) (h : n + 1 < cfg0.N) (h0 : ¬(n + 1) % 8 = 0) :
    accMain m c (n + 1) h = mainStep m c (n + 1) h (accMain m c n (Nat.lt_of_succ_lt h)) := by
  show (outsAt0 m c (n + 1) h).2.1 = _
  by_cases h1 : (n + 1) % 8 = 7
  · rw [outsAt0_C m c ⟨n + 1, h⟩ h0 h1]
    dsimp only
    exact mainC (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
  · rw [outsAt0_B m c ⟨n + 1, h⟩ h0 h1]
    dsimp only
    exact mainB (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2

theorem accDown_step (c : Dev nD) (n : ℕ) (h : n + 1 < cfg0.N) (h0 : ¬(n + 1) % 8 = 0) :
    accDown m c (n + 1) h = downStep m c (n + 1) h (accDown m c n (Nat.lt_of_succ_lt h)) := by
  show (outsAt0 m c (n + 1) h).2.2 = _
  by_cases h1 : (n + 1) % 8 = 7
  · rw [outsAt0_C m c ⟨n + 1, h⟩ h0 h1]
    dsimp only
    exact downC (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
  · rw [outsAt0_B m c ⟨n + 1, h⟩ h0 h1]
    dsimp only
    exact downB (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2

/-- The main accumulator after point `t` is the fold over its run, from the run's first point up to `t`. -/
theorem accMain_fold (c : Dev nD) (t : ℕ) (ht : t < cfg0.N) (h' : 8 * (t / 8) + t % 8 < cfg0.N) :
    accMain m c t ht = Pipeline.accAt (mainReset m c) (mainStep m c) (8 * (t / 8)) (t % 8) h' :=
  Pipeline.eq_accAt_of_mod (fun n h => accMain m c n h) 8 (mainReset m c) (mainStep m c)
    (fun n h h0 => accMain_reset m c n h h0) (fun n h h0 => accMain_step m c n h h0) (by decide) t ht h'

/-- The projection accumulator likewise. -/
theorem accDown_fold (c : Dev nD) (t : ℕ) (ht : t < cfg0.N) (h' : 8 * (t / 8) + t % 8 < cfg0.N) :
    accDown m c t ht = Pipeline.accAt (downReset m c) (downStep m c) (8 * (t / 8)) (t % 8) h' :=
  Pipeline.eq_accAt_of_mod (fun n h => accDown m c n h) 8 (downReset m c) (downStep m c)
    (fun n h h0 => accDown_reset m c n h h0) (fun n h h0 => accDown_step m c n h h0) (by decide) t ht h'

/-- At a run's last point the output block is the body's last term of the up block and the two accumulators as the
    point leaves them. -/
theorem out_last (c : Dev nD) (t : Fin cfg0.N) (h1 : t.val % 8 = 7) :
    (outsAt0 m c t.val t.isLt).1 = k0_pay6 (ublk m c t) (accDown m c t.val t.isLt) (accMain m c t.val t.isLt) := by
  have h0 : ¬t.val % 8 = 0 := by omega
  show (outsAt0 m c t.val t.isLt).1 = k0_pay6 (iblk m c 4 t) (outsAt0 m c t.val t.isLt).2.2 (outsAt0 m c t.val t.isLt).2.1
  rw [outsAt0_C m c t h0 h1]
  dsimp only
  refine (outC (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_
  exact congrArg₂ (k0_pay6 (iblk m c 4 t))
    (downC (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).symm
    (mainC (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).symm

end AnyInstance

end Cert.KernelIdeal.Accum

end
-- ==== Proof.AccumSum.lean ====
/-
  The accumulators and the output block as sums over the extended reals.

  Read at entry (p, q): a step of the main accumulator adds the sum over the block's 512 columns of activation (p, k)
  times weight (q, k) times scale (q, k); a step of the projection accumulator adds activation (p, k) times down (r, k);
  the output is the main accumulator plus 2.0 times the sum over the sixteen directions of projection (p, r) times up
  (q, r). Folding the eight steps of a run gives zero plus the eight addends, and an addend's columns are columns
  `512 k …` of the arrays.
-/
import proofs.«155338_j26422638805106_1_alg».proof.Proof.Accum

noncomputable section

open scoped BigOperators
open Idealize.ShloMosaic Idealize.ShloMosaic.TcCoe Idealize.SL.Sem Idealize.ShloMosaic.ValueIdx
open Idealize.ShloMosaic.Pipeline (Dat)

namespace Cert.KernelIdeal.AccumSum

open Cert.KernelIdeal Cert.KernelIdeal.Gen Cert.KernelIdeal.Blocks Cert.KernelIdeal.Dots Cert.KernelIdeal.Accum Cert.LoraGemm

/-! ## The body's three terms at an entry -/

theorem pay4_apply (x0 : Vec Ideal S2048x512 .f32) (x1 x2 : Vec Ideal S512x512 .f32) (acc : Vec Ideal S2048x512 .f32)
    (p : Fin 2048) (q : Fin 512) :
    k0_pay4 x0 x1 x2 acc (ix2 p q) = acc (ix2 p q) + ∑ k : Fin 512, x0 (ix2 p k) * (x1 (ix2 q k) * x2 (ix2 q k)) := by
  unfold k0_pay4 k0_pay3
  simp only [shapeCast_self]
  exact congrArg (acc (ix2 p q) + ·) (main_apply _ _ p q)

theorem pay5_apply (x0 : Vec Ideal S2048x512 .f32) (x3 : Vec Ideal S16x512 .f32) (acc : Vec Ideal S2048x16 .f32)
    (p : Fin 2048) (r : Fin 16) :
    k0_pay5 x0 x3 acc (ix2 p r) = acc (ix2 p r) + ∑ k : Fin 512, x0 (ix2 p k) * x3 (ix2 r k) := by
  unfold k0_pay5 k0_pay3
  simp only [shapeCast_self]
  exact congrArg (acc (ix2 p r) + ·) (down_apply _ _ p r)

theorem pay6_apply (x4 : Vec Ideal S512x16 .f32) (ad : Vec Ideal S2048x16 .f32) (am : Vec Ideal S2048x512 .f32)
    (p : Fin 2048) (q : Fin 512) :
    k0_pay6 x4 ad am (ix2 p q)
      = am (ix2 p q) + Ideal.ofBits .f32 0x40000000#32 * ∑ r : Fin 16, ad (ix2 p r) * x4 (ix2 q r) := by
  unfold k0_pay6
  exact congrArg (fun z => am (ix2 p q) + Ideal.ofBits .f32 0x40000000#32 * z) (up_apply _ _ p q)

theorem pay1_apply (i : S2048x512.Idx) : k0_pay1 (F := Ideal) i = Ideal.ofBits .f32 0x00000000#32 := by
  unfold k0_pay1
  simp only [shapeCast_self]
  rfl

theorem pay2_apply (i : S2048x16.Idx) : k0_pay2 (F := Ideal) i = Ideal.ofBits .f32 0x00000000#32 := by
  unfold k0_pay2
  simp only [shapeCast_self]
  rfl

variable (m : (ℓ : Loc nD τ sig) → Buf (Elt Ideal) ℓ)

/-! ## The addends -/

/-- Point `n`'s partial product at an entry (zero past the grid: never used). -/
def mainAdd (c : Dev nD) (n : ℕ) (i : S2048x512.Idx) : EReal :=
  if h : n < cfg0.N then
    ∑ k : Fin 512, xblk m c ⟨n, h⟩ (ix2 (n0 := 2048) (i 0) k) * (wblk m c ⟨n, h⟩ (ix2 (n0 := 512) (i 1) k) * sblk m c ⟨n, h⟩ (ix2 (n0 := 512) (i 1) k))
  else 0

/-- Point `n`'s partial projection at an entry. -/
def downAdd (c : Dev nD) (n : ℕ) (i : S2048x16.Idx) : EReal :=
  if h : n < cfg0.N then
    ∑ k : Fin 512, xblk m c ⟨n, h⟩ (ix2 (n0 := 2048) (i 0) k) * dblk m c ⟨n, h⟩ (ix2 (n0 := 16) (i 1) k)
  else 0

theorem mainStep_apply (c : Dev nD) (n : ℕ) (h : n < cfg0.N) (acc : Vec Ideal S2048x512 .f32) (i : S2048x512.Idx) :
    mainStep m c n h acc i = acc i + mainAdd m c n i := by
  obtain ⟨p, q, rfl⟩ : ∃ (p : Fin 2048) (q : Fin 512), i = ix2 p q := ⟨i 0, i 1, eq_ix2 i⟩
  unfold mainStep mainAdd
  rw [dif_pos h]
  exact pay4_apply _ _ _ acc p q

theorem mainReset_apply (c : Dev nD) (n : ℕ) (h : n < cfg0.N) (i : S2048x512.Idx) :
    mainReset m c n h i = Ideal.ofBits .f32 0x00000000#32 + mainAdd m c n i := by
  rw [← pay1_apply i]
  exact mainStep_apply m c n h (k0_pay1 (F := Ideal)) i

theorem downStep_apply (c : Dev nD) (n : ℕ) (h : n < cfg0.N) (acc : Vec Ideal S2048x16 .f32) (i : S2048x16.Idx) :
    downStep m c n h acc i = acc i + downAdd m c n i := by
  obtain ⟨p, r, rfl⟩ : ∃ (p : Fin 2048) (r : Fin 16), i = ix2 p r := ⟨i 0, i 1, eq_ix2 i⟩
  unfold downStep downAdd
  rw [dif_pos h]
  exact pay5_apply _ _ acc p r

theorem downReset_apply (c : Dev nD) (n : ℕ) (h : n < cfg0.N) (i : S2048x16.Idx) :
    downReset m c n h i = Ideal.ofBits .f32 0x00000000#32 + downAdd m c n i := by
  rw [← pay2_apply i]
  exact downStep_apply m c n h (k0_pay2 (F := Ideal)) i

/-! ## The accumulators as range sums -/

/-- After point `t`: the addends of its run's points up to `t` (the leading zero dropped). -/
theorem accMain_sum (c : Dev nD) (t : ℕ) (ht : t < cfg0.N) (i : S2048x512.Idx) :
    accMain m c t ht i = ∑ s ∈ Finset.range (t % 8 + 1), mainAdd m c (8 * (t / 8) + s) i := by
  have h' : 8 * (t / 8) + t % 8 < cfg0.N := by rw [Nat.div_add_mod]; exact ht
  refine (congrFun (accMain_fold m c t ht h') i).trans ?_
  rw [Pipeline.accAt_add_apply (mainReset m c) (mainStep m c) (fun _ => Ideal.ofBits .f32 0x00000000#32) (mainAdd m c) (8 * (t / 8)) 7
    (fun h i => mainReset_apply m c _ h i) (fun n h acc i _ _ => mainStep_apply m c n h acc i) (t % 8) (by omega) h' i,
    Ideal.ofBits_zero_f32, zero_add]

theorem accDown_sum (c : Dev nD) (t : ℕ) (ht : t < cfg0.N) (i : S2048x16.Idx) :
    accDown m c t ht i = ∑ s ∈ Finset.range (t % 8 + 1), downAdd m c (8 * (t / 8) + s) i := by
  have h' : 8 * (t / 8) + t % 8 < cfg0.N := by rw [Nat.div_add_mod]; exact ht
  refine (congrFun (accDown_fold m c t ht h') i).trans ?_
  rw [Pipeline.accAt_add_apply (downReset m c) (downStep m c) (fun _ => Ideal.ofBits .f32 0x00000000#32) (downAdd m c) (8 * (t / 8)) 7
    (fun h i => downReset_apply m c _ h i) (fun n h acc i _ _ => downStep_apply m c n h acc i) (t % 8) (by omega) h' i,
    Ideal.ofBits_zero_f32, zero_add]

end Cert.KernelIdeal.AccumSum

end
-- ==== Proof.Total.lean ====
/-
  A run's totals, at array coordinates.

  Point `n` = 64 i + 8 j + k reads columns `512 k …` of every operand; along a run k goes 0 … 7, so the eight addends
  of a run cover columns 0 … 4095 exactly once, block by block. Summing them is the full contraction over 4096
  columns (a sum taken block by block is the whole sum). So at the run's last point the main accumulator's entry (p, q)
  is the main product at row `2048 i + p`, column `512 j + q`; the projection accumulator's entry (p, r) is the
  projection of that row onto direction r; and the output block is the two-axis result at those coordinates.
-/
import proofs.«155338_j26422638805106_1_alg».proof.Proof.AccumSum

noncomputable section

open scoped BigOperators
open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Blocks Cert.KernelIdeal.Accum Cert.KernelIdeal.AccumSum Cert.LoraGemm

variable (m : (ℓ : Loc nD τ sig) → Buf (Elt Ideal) ℓ)

theorem N_eq : cfg0.N = 256 := N_0

/-- A partial product's entry, over the arrays: columns `512 (n mod 8) …`. -/
theorem mainAdd_arr (c : Dev nD) (n : ℕ) (hn : n < cfg0.N) (i : S2048x512.Idx) :
    mainAdd m c n i = ∑ k : Fin 512,
      rd2 (xarr m c) (2048 * (n / 64) + (i 0).val) (512 * (n % 8) + k.val)
        * (rd2 (warr m c) (512 * (n / 8 % 8) + (i 1).val) (512 * (n % 8) + k.val)
          * rd2 (sarr m c) (512 * (n / 8 % 8) + (i 1).val) (512 * (n % 8) + k.val)) := by
  have hn' : n < 256 := N_eq ▸ hn
  have hp : (i 0).val < 2048 := (i 0).isLt
  have hq : (i 1).val < 512 := (i 1).isLt
  unfold mainAdd
  rw [dif_pos hn]
  refine Finset.sum_congr rfl fun k _ => ?_
  have hk : k.val < 512 := k.isLt
  rw [xblk_apply m c ⟨n, hn⟩ (ix2 (n0 := 2048) (i 0) k)
        (ix2 (n0 := 8192) (n1 := 4096) ⟨2048 * (n / 64) + (i 0).val, by omega⟩ ⟨512 * (n % 8) + k.val, by omega⟩) rfl rfl,
    wblk_apply m c ⟨n, hn⟩ (ix2 (n0 := 512) (i 1) k)
        (ix2 (n0 := 4096) (n1 := 4096) ⟨512 * (n / 8 % 8) + (i 1).val, by omega⟩ ⟨512 * (n % 8) + k.val, by omega⟩) rfl rfl,
    sblk_apply m c ⟨n, hn⟩ (ix2 (n0 := 512) (i 1) k)
        (ix2 (n0 := 4096) (n1 := 4096) ⟨512 * (n / 8 % 8) + (i 1).val, by omega⟩ ⟨512 * (n % 8) + k.val, by omega⟩) rfl rfl,
    rd2_of_val (xarr m c) _ (2048 * (n / 64) + (i 0).val) (512 * (n % 8) + k.val) rfl rfl,
    rd2_of_val (warr m c) _ (512 * (n / 8 % 8) + (i 1).val) (512 * (n % 8) + k.val) rfl rfl,
    rd2_of_val (sarr m c) _ (512 * (n / 8 % 8) + (i 1).val) (512 * (n % 8) + k.val) rfl rfl]

/-- A partial projection's entry, over the arrays. -/
theorem downAdd_arr (c : Dev nD) (n : ℕ) (hn : n < cfg0.N) (i : S2048x16.Idx) :
    downAdd m c n i = ∑ k : Fin 512,
      rd2 (xarr m c) (2048 * (n / 64) + (i 0).val) (512 * (n % 8) + k.val)
        * rd2 (darr m c) (i 1).val (512 * (n % 8) + k.val) := by
  have hn' : n < 256 := N_eq ▸ hn
  have hp : (i 0).val < 2048 := (i 0).isLt
  have hr : (i 1).val < 16 := (i 1).isLt
  unfold downAdd
  rw [dif_pos hn]
  refine Finset.sum_congr rfl fun k _ => ?_
  have hk : k.val < 512 := k.isLt
  rw [xblk_apply m c ⟨n, hn⟩ (ix2 (n0 := 2048) (i 0) k)
        (ix2 (n0 := 8192) (n1 := 4096) ⟨2048 * (n / 64) + (i 0).val, by omega⟩ ⟨512 * (n % 8) + k.val, by omega⟩) rfl rfl,
    dblk_apply m c ⟨n, hn⟩ (ix2 (n0 := 16) (i 1) k)
        (ix2 (n0 := 16) (n1 := 4096) ⟨(i 1).val, hr⟩ ⟨512 * (n % 8) + k.val, by omega⟩) rfl rfl,
    rd2_of_val (xarr m c) _ (2048 * (n / 64) + (i 0).val) (512 * (n % 8) + k.val) rfl rfl,
    rd2_of_val (darr m c) _ (i 1).val (512 * (n % 8) + k.val) rfl rfl]

/-- At a run's last point the main accumulator holds the full contraction. -/
theorem main_total (c : Dev nD) (t : ℕ) (ht : t < cfg0.N) (h7 : t % 8 = 7) (i : S2048x512.Idx) :
    accMain m c t ht i
      = main2At (xarr m c) (warr m c) (sarr m c) (2048 * (t / 64) + (i 0).val) (512 * (t / 8 % 8) + (i 1).val) := by
  have ht' : t < 256 := N_eq ▸ ht
  rw [accMain_sum, h7]
  unfold main2At
  refine Eq.trans ?_ (sum_by_blocks_range 8 512 rfl (fun k =>
    rd2 (xarr m c) (2048 * (t / 64) + (i 0).val) k
      * (rd2 (warr m c) (512 * (t / 8 % 8) + (i 1).val) k * rd2 (sarr m c) (512 * (t / 8 % 8) + (i 1).val) k))).symm
  refine Finset.sum_congr rfl fun s hs => ?_
  have hs' : s < 8 := Finset.mem_range.mp hs
  have e1 : (8 * (t / 8) + s) / 64 = t / 64 := by omega
  have e2 : (8 * (t / 8) + s) % 8 = s := by omega
  have e3 : (8 * (t / 8) + s) / 8 % 8 = t / 8 % 8 := by omega
  rw [mainAdd_arr m c _ (by rw [N_eq]; omega) i, e1, e2, e3]

/-- And the projection accumulator the full projection. -/
theorem down_total (c : Dev nD) (t : ℕ) (ht : t < cfg0.N) (h7 : t % 8 = 7) (i : S2048x16.Idx) :
    accDown m c t ht i = down2At (xarr m c) (darr m c) (2048 * (t / 64) + (i 0).val) (i 1).val := by
  have ht' : t < 256 := N_eq ▸ ht
  rw [accDown_sum, h7]
  unfold down2At
  refine Eq.trans ?_ (sum_by_blocks_range 8 512 rfl (fun k =>
    rd2 (xarr m c) (2048 * (t / 64) + (i 0).val) k * rd2 (darr m c) (i 1).val k)).symm
  refine Finset.sum_congr rfl fun s hs => ?_
  have hs' : s < 8 := Finset.mem_range.mp hs
  have e1 : (8 * (t / 8) + s) / 64 = t / 64 := by omega
  have e2 : (8 * (t / 8) + s) % 8 = s := by omega
  rw [downAdd_arr m c _ (by rw [N_eq]; omega) i, e1, e2]

/-- The output block at a run's last point: the two-axis result at row `2048 i + p`, column `512 j + q`. -/
theorem out_block (c : Dev nD) (t : Fin cfg0.N) (h7 : t.val % 8 = 7) (y : S2048x512.Idx) (z : S8192x4096.Idx)
    (h0 : (z 0).val = 2048 * (t.val / 64) + (y 0).val) (h1 : (z 1).val = 512 * (t.val / 8 % 8) + (y 1).val) :
    (outsAt0 m c t.val t.isLt).1 y = G2 (xarr m c) (warr m c) (sarr m c) (darr m c) (uarr m c) z := by
  obtain ⟨p, q, rfl⟩ : ∃ (p : Fin 2048) (q : Fin 512), y = ix2 p q := ⟨y 0, y 1, eq_ix2 y⟩
  have ht' : t.val < 256 := N_eq ▸ t.isLt
  have hq : q.val < 512 := q.isLt
  refine (congrFun (out_last m c t h7) (ix2 p q)).trans ?_
  rw [pay6_apply]
  unfold G2
  rw [h0, h1]
  congr 1
  · exact main_total m c t.val t.isLt h7 (ix2 p q)
  · congr 1
    refine Finset.sum_congr rfl fun r _ => ?_
    rw [down_total m c t.val t.isLt h7 (ix2 p r),
      ublk_apply m c t (ix2 q r) (ix2 (n0 := 4096) (n1 := 16) ⟨512 * (t.val / 8 % 8) + q.val, by omega⟩ r) rfl rfl,
      rd2_of_val (uarr m c) _ (512 * (t.val / 8 % 8) + q.val) r.val rfl rfl]

end Cert.KernelIdeal.Total

end
-- ==== Proof.Final.lean ====
/-
  The kernel program's result.

  The output window is written back only at a run's last point (k = 7), and the 32 blocks written there tile the
  [8192, 4096] array: entry (r, o) lies in the block of point 64 (r / 2048) + 8 (o / 512) + 7. Each written block is the
  two-axis result read through the block, so the array ends holding the two-axis result. The host then reshapes it
  to [4, 2048, 4096]: entry (b, s, o) is the two-axis entry (2048 b + s, o), which is the three-axis result `G`.
-/
import proofs.«155338_j26422638805106_1_alg».proof.Proof.Total
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Total Cert.LoraGemm

variable (m : (ℓ : Loc nD τ sig) → Buf (Elt Ideal) ℓ) (ρ : Dev nD → PrngReg)

/-- The two-axis result of the arrays the region finds, as contents of the region's output array. -/
abbrev outArr (c : Dev nD) : Buf (Elt Ideal) ((c : Thread nD τ).loc main_v5) :=
  G2 (xarr m c) (warr m c) (sarr m c) (darr m c) (uarr m c)

/-- What a run's last point writes back is its block of the two-axis result. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  show (cfg0.win 5).cut (grid0.coords t) ((dats m 0 c).after 5 t) = _
  rw [after0_5]
  funext j
  obtain ⟨-, -, -, -, -, -, -, -, -, -, e0, e1⟩ := idx_facts t
  show (outsAt0 m c t.val t.isLt).1 j = outArr m c (((cfg0.win 5).blk t).view.emb j)
  exact out_block m c t h7 j _
    (by show win0_5.index t (0 : Fin 2) * 2048 + 1 * (j 0).val = _; rw [e0]; omega)
    (by show win0_5.index t (1 : Fin 2) * 512 + 1 * (j 1).val = _; rw [e1]; omega)

/-- An entry is in point `t`'s output block iff each coordinate is in the block's range. -/
theorem mem_blk (t : Fin cfg0.N) (i : S8192x4096.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v5).slice (win0_5.rect t)).set ↔ _
  rw [View.set_slice_whole, Rect.mem_set_unit]
  exact Iff.rfl

/-- Every entry of the output array is in the block some run's last point writes back. -/
theorem covered (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hlt : 64 * ((i 0).val / 2048) + 8 * ((i 1).val / 512) + 7 < cfg0.N := by rw [N_eq]; omega
  refine ⟨⟨64 * ((i 0).val / 2048) + 8 * ((i 1).val / 512) + 7, hlt⟩, (flush0_5 _).mpr (by dsimp only; omega), ?_⟩
  rw [mem_blk]
  obtain ⟨-, -, -, -, -, -, -, -, -, -, e0, e1⟩ := idx_facts ⟨64 * ((i 0).val / 2048) + 8 * ((i 1).val / 512) + 7, hlt⟩
  dsimp only at e0 e1
  intro a
  match a with
  | ⟨0, _⟩ =>
    show win0_5.index _ (0 : Fin 2) * 2048 ≤ (i 0).val ∧ (i 0).val < win0_5.index _ (0 : Fin 2) * 2048 + 2048
    rw [e0]; omega
  | ⟨1, _⟩ =>
    show win0_5.index _ (1 : Fin 2) * 512 ≤ (i 1).val ∧ (i 1).val < win0_5.index _ (1 : Fin 2) * 512 + 512
    rw [e1]; omega

/-- So the region's output array ends holding the two-axis result. -/
theorem final_out (c : Dev nD) : (dats m 0 c).arrAt 5 cfg0.N = outArr m c :=
  (dats m 0 c).arrAt_eq_of_cover 5 (outArr m c) (flushed_eq m c) covered

/-- The program's result buffer after the host's last reshape. -/
theorem tail_eq (c : Dev nD) :
    Pipeline.afterTail₀ cfgs (dats m) 0 (V0 m) [hostOps1] c main_v6
      = shapeCast S4x2048x4096 (outArr m c) shapeCasts_S8192x4096_S4x2048x4096 := by
  unfold Pipeline.afterTail₀
  show StableHlo.after hostOps1 _ (Proc.devRef .tc main_v6) = _
  after_results
  exact congrArg (fun a => shapeCast S4x2048x4096 a shapeCasts_S8192x4096_S4x2048x4096)
    ((Pipeline.withArrays_arr spec0 launch0.win.arr_inj c _ _ 5).trans (final_out m c))

/-- Entry (b, s, o) of the reshaped result is entry (2048 b + s, o) of the two-axis result: the three-axis result `G` of
    the arguments and the expanded scale. -/
theorem result_eq (c : Dev nD) :
    shapeCast S4x2048x4096 (outArr m c) shapeCasts_S8192x4096_S4x2048x4096
      = G (m ((c : Thread nD τ).loc main_arg0)) (m ((c : Thread nD τ).loc main_arg1)) (sarr m c)
          (m ((c : Thread nD τ).loc main_arg3)) (m ((c : Thread nD τ).loc main_arg4)) := by
  funext i
  have hb : (i 0).val < 4 := (i 0).isLt
  have hs : (i 1).val < 2048 := (i 1).isLt
  have ho : (i 2).val < 4096 := (i 2).isLt
  rw [shapeCast_apply (s := S8192x4096) (t := S4x2048x4096) (α := EReal) (outArr m c) shapeCasts_S8192x4096_S4x2048x4096 i
    (ix2 (n0 := 8192) (n1 := 4096) ⟨2048 * (i 0).val + (i 1).val, by omega⟩ ⟨(i 2).val, ho⟩) (by
      rewrite [Shape.rowMajor_val_three, Shape.rowMajor_val_two]
      show (2048 * (i 0).val + (i 1).val) * 4096 + (i 2).val = ((i 0).val * 2048 + (i 1).val) * 4096 + (i 2).val
      ring)]
  show G2 (xarr m c) (warr m c) (sarr m c) (darr m c) (uarr m c) _ = _
  rw [xarr_eq, warr_eq, darr_eq, uarr_eq]
  exact G2_reshape _ shapeCasts_S4x2048x4096_S8192x4096 _ _ _ _ _ i rfl rfl

/-- The kernel program's run, read: the result at `G`, the arguments unchanged. -/
theorem run : θ_run defs (onTc (τ := τ) (main (F := Ideal))) ⟨m, fun _ => 0, ρ⟩ fun r => ∀ c : Dev nD,
      r.2.mem ((c.tc : Thread nD τ).loc main_v6)
          = G (m ((c : Thread nD τ).loc main_arg0)) (m ((c : Thread nD τ).loc main_arg1)) (sarr m c)
              (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v6 (Pipeline.mem_restRefs_of main_v6 (by decide) (by decide))).trans (tail_eq m c)).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Final

end
-- ==== Proof.lean ====
/-
  A block-scaled matrix product with a rank-16 correction: the tiled kernel against the plain reference.

  Both programs compute, at entry (b, s, o) of a [4, 2048, 4096] result,

      ∑ₖ x[b,s,k] · (w[o,k] · sf[o,k])  +  2 · ∑ᵣ (∑ₖ x[b,s,k] · ld[r,k]) · lu[o,r]

  where `sf` is the 32 × 32 scale table repeated over 128 × 128 blocks (built by the same four host operations in both
  programs). The reference does it with three whole contractions. The kernel walks a 4 × 8 × 8 grid: for each of the
  4 × 8 output blocks it keeps two accumulators over the eight column blocks of 512, starting from zero, and at the
  eighth it adds twice the recombined projections and writes the block out. Over the extended reals every change of
  float format is the identity and no product is rounded, so the only difference is the grouping of the sums over k —
  zero plus eight partial sums of 512 terms against one sum of 4096 — and regrouping a finite sum needs only that
  addition is commutative and associative. The inputs' finiteness is never used.

  The pieces: Spec (the function), BlockSum (a sum taken block by block; arrays read at natural coordinates), RefSide
  (the reference is the function), Pieces and Accum (what the kernel's accumulators hold, point by point), Dots and
  AccumSum (those contents as sums), Blocks and Total (the sums over the arrays' own coordinates), Final (the output
  array, the host's last reshape, the run). The ideal pass rewrote nothing, so the kernel's idealization is its own
  text.
-/
import proofs.«155338_j26422638805106_1_alg».proof.Defs
import proofs.«155338_j26422638805106_1_alg».proof.Proof.Gen.Kernel
import proofs.«155338_j26422638805106_1_alg».proof.Proof.Gen.Kernel.Skeleton
import proofs.«155338_j26422638805106_1_alg».proof.Proof.Gen.Kernel.Launch
import proofs.«155338_j26422638805106_1_alg».proof.Proof.Gen.Kernel.Points
import proofs.«155338_j26422638805106_1_alg».proof.Proof.Gen.Kernel.Frame
import proofs.«155338_j26422638805106_1_alg».proof.Proof.Gen.KernelIdeal
import proofs.«155338_j26422638805106_1_alg».proof.Proof.Gen.KernelIdeal.Skeleton
import proofs.«155338_j26422638805106_1_alg».proof.Proof.Gen.KernelIdeal.Launch
import proofs.«155338_j26422638805106_1_alg».proof.Proof.Gen.KernelIdeal.Points
import proofs.«155338_j26422638805106_1_alg».proof.Proof.Gen.KernelIdeal.Frame
import proofs.«155338_j26422638805106_1_alg».proof.Proof.Gen.ReferenceIdeal
import proofs.«155338_j26422638805106_1_alg».proof.Proof.Gen.Pre_finite_inputs
import proofs.«155338_j26422638805106_1_alg».proof.Proof.Gen.ReferenceIdeal.Run
import proofs.«155338_j26422638805106_1_alg».proof.Proof.Gen.ReferenceIdeal.Read
import proofs.«155338_j26422638805106_1_alg».proof.Proof.RefSide
import proofs.«155338_j26422638805106_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories that agree on the five arguments, the kernel program ends with its result at the function `G` of
    them and of the expanded scale as its own host code builds it; the reference ends at `G` of them and of the
    expanded scale as ITS host code builds it; the two expansions are the same four operations of the same table. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_is_G,
    (hagree c).1, (hagree c).2.1, (hagree c).2.2.1, (hagree c).2.2.2.1, (hagree c).2.2.2.2,
    Cert.KernelIdeal.Blocks.sarr_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
